-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 115
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S512x128, .f32⟩
  | .hbm, ⟨99, _⟩ => ⟨S100000x1, .i32⟩
  | .hbm, ⟨100, _⟩ => ⟨S512x128, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S512, .f32⟩
  | .hbm, ⟨105, _⟩ => ⟨S100000x1, .i32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512x1, .f32⟩
  | .hbm, ⟨111, _⟩ => ⟨S512x128, .f32⟩
  | .hbm, ⟨112, _⟩ => ⟨S512x128, .f32⟩
  | .hbm, ⟨113, _⟩ => ⟨S1x10, .f32⟩
  | .hbm, ⟨114, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S512x128, .f32⟩
  | .local _ .vmem, ⟨18, _⟩ => ⟨S128x10, .f32⟩
  | .local _ .vmem, ⟨19, _⟩ => ⟨S1x10, .f32⟩
  | .local _ .vmem, ⟨20, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S512x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x1, .f32⟩
  | 96 => ⟨S1700000x128, .f32⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S512x128, .f32⟩
  | 107 => ⟨S100000x1, .i32⟩
  | 108 => ⟨S512x128, .f32⟩
  | 109 => ⟨S_, .f32⟩
  | 110 => ⟨S100000, .f32⟩
  | 111 => ⟨S_, .f32⟩
  | 112 => ⟨S512, .f32⟩
  | 113 => ⟨S100000x1, .i32⟩
  | 114 => ⟨S512, .f32⟩
  | 115 => ⟨S_, .f32⟩
  | 116 => ⟨S512, .f32⟩
  | 117 => ⟨S512, .f32⟩
  | 118 => ⟨S512x1, .f32⟩
  | 119 => ⟨S512x128, .f32⟩
  | 120 => ⟨S512x128, .f32⟩
  | 121 => ⟨S512x10, .f32⟩
  | 122 => ⟨S1x10, .f32⟩
  | 123 => ⟨S512x10, .f32⟩
  | 124 => ⟨S512x10, .f32⟩
  | 125 => ⟨S_, .f32⟩
  | 126 => ⟨S512, .f32⟩
  | 127 => ⟨S_, .f32⟩
  | _ => ⟨S100000x128, .f32⟩

abbrev hbmTy0_1 (i : Nat) : BufTy := match i % 128 with
  | 0 => ⟨S512, .f32⟩
  | 1 => ⟨S512, .f32⟩
  | 2 => ⟨S512x1, .f32⟩
  | 3 => ⟨S512x10, .f32⟩
  | 4 => ⟨S512x10, .f32⟩
  | 5 => ⟨S512x10, .f32⟩
  | 6 => ⟨S_, .f32⟩
  | 7 => ⟨S512, .f32⟩
  | 8 => ⟨S512x1, .f32⟩
  | 9 => ⟨S512x1, .f32⟩
  | 10 => ⟨S512x10, .f32⟩
  | 11 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_call2_cst_0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_cst_1 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.FoldHost.lean ====
/-
  The kernel program's buffer contents at the boundaries between its host stretches and its four kernel regions, read
  back as the reference's own stages. Before the first region the two programs run the same host operations on the
  edge list (source and target node of every edge with the self loops appended, the degree by a scatter-add of ones,
  its inverse square root where positive, the edge weight as the product of the two gathered factors), so those
  buffers hold the reference's stages of the same edge list. A host stretch between regions reads buffers an earlier
  stretch or region left: each such read is stated under hypotheses saying what those buffers hold, and concludes
  that the stretch's result is the reference's stage of the same arguments. A buffer that a stretch or a region does
  not write keeps what it held. Everything here is generic in the float family: nothing is computed, operations
  are only matched with operations.
-/
import proofs.«101137_j3058016714895_1_alg».proof.Proof.Gen.KernelIdeal.Frame
import proofs.«101137_j3058016714895_1_alg».proof.Proof.RefRead

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo (after_cons after_nil)
open Cert.ReferenceIdeal.ReadP

variable {F : FTy → Type} [FloatOps F]
variable (m : (ℓ : Loc nD τ sig) → Buf (Elt F) ℓ) (ρ : Dev nD → PrngReg)

/-- Reads a buffer after a host stretch: the stretch's operations applied to what the buffers held before it. -/
macro "host_read" : tactic =>
  `(tactic| (dsimp only [W1, W2, W3, W5, W8, hostOps0, hostOps0_1, hostOps0_2, hostOps1, hostOps3]
             after_results_simp))

/-! ## Region 0's entry: the stages of the edge list, and the arguments as launched -/

theorem W3_v3 (c : Dev nD) : W3 m ρ c (Proc.devRef .tc main_v3) = val_main_v3 (F := F) (m ((c : Thread nD τ).loc main_arg1)) := by
  host_read <;> rfl
theorem W3_v6 (c : Dev nD) : W3 m ρ c (Proc.devRef .tc main_v6) = val_main_v6 (F := F) (m ((c : Thread nD τ).loc main_arg1)) := by
  host_read <;> rfl
theorem W3_v29 (c : Dev nD) : W3 m ρ c (Proc.devRef .tc main_v29) = val_main_v29 (F := F) (m ((c : Thread nD τ).loc main_arg1)) := by
  host_read <;> rfl
theorem W3_arg0 (c : Dev nD) : W3 m ρ c (Proc.devRef .tc main_arg0) = m ((c : Thread nD τ).loc main_arg0) := by
  host_read <;> rfl
theorem W3_arg2 (c : Dev nD) : W3 m ρ c (Proc.devRef .tc main_arg2) = m ((c : Thread nD τ).loc main_arg2) := by
  host_read <;> rfl
theorem W3_arg3 (c : Dev nD) : W3 m ρ c (Proc.devRef .tc main_arg3) = m ((c : Thread nD τ).loc main_arg3) := by
  host_read <;> rfl
theorem W3_arg4 (c : Dev nD) : W3 m ρ c (Proc.devRef .tc main_arg4) = m ((c : Thread nD τ).loc main_arg4) := by
  host_read <;> rfl
theorem W3_arg5 (c : Dev nD) : W3 m ρ c (Proc.devRef .tc main_arg5) = m ((c : Thread nD τ).loc main_arg5) := by
  host_read <;> rfl
theorem W3_arg6 (c : Dev nD) : W3 m ρ c (Proc.devRef .tc main_arg6) = m ((c : Thread nD τ).loc main_arg6) := by
  host_read <;> rfl
theorem W3_arg7 (c : Dev nD) : W3 m ρ c (Proc.devRef .tc main_arg7) = m ((c : Thread nD τ).loc main_arg7) := by
  host_read <;> rfl
theorem W3_arg8 (c : Dev nD) : W3 m ρ c (Proc.devRef .tc main_arg8) = m ((c : Thread nD τ).loc main_arg8) := by
  host_read <;> rfl
theorem W3_arg9 (c : Dev nD) : W3 m ρ c (Proc.devRef .tc main_arg9) = m ((c : Thread nD τ).loc main_arg9) := by
  host_read <;> rfl
theorem W3_arg10 (c : Dev nD) : W3 m ρ c (Proc.devRef .tc main_arg10) = m ((c : Thread nD τ).loc main_arg10) := by
  host_read <;> rfl

/-! ## What a region or a stretch does not write, it keeps -/

theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_v29 (c : Dev nD) : W4 m ρ c (Proc.devRef .tc main_v29) = W3 m ρ c (Proc.devRef .tc main_v29) := W4_of_ne m ρ c main_v29 (by decide)
theorem W4_arg2 (c : Dev nD) : W4 m ρ c (Proc.devRef .tc main_arg2) = W3 m ρ c (Proc.devRef .tc main_arg2) := W4_of_ne m ρ c main_arg2 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)
theorem W4_arg6 (c : Dev nD) : W4 m ρ c (Proc.devRef .tc main_arg6) = W3 m ρ c (Proc.devRef .tc main_arg6) := W4_of_ne m ρ c main_arg6 (by decide)
theorem W4_arg7 (c : Dev nD) : W4 m ρ c (Proc.devRef .tc main_arg7) = W3 m ρ c (Proc.devRef .tc main_arg7) := W4_of_ne m ρ c main_arg7 (by decide)
theorem W4_arg8 (c : Dev nD) : W4 m ρ c (Proc.devRef .tc main_arg8) = W3 m ρ c (Proc.devRef .tc main_arg8) := W4_of_ne m ρ c main_arg8 (by decide)
theorem W4_arg9 (c : Dev nD) : W4 m ρ c (Proc.devRef .tc main_arg9) = W3 m ρ c (Proc.devRef .tc main_arg9) := W4_of_ne m ρ c main_arg9 (by decide)
theorem W4_arg10 (c : Dev nD) : W4 m ρ c (Proc.devRef .tc main_arg10) = W3 m ρ c (Proc.devRef .tc main_arg10) := W4_of_ne m ρ c main_arg10 (by decide)
theorem W5_v3 (c : Dev nD) : W5 m ρ c (Proc.devRef .tc main_v3) = W4 m ρ c (Proc.devRef .tc main_v3) := by host_read
theorem W5_v6 (c : Dev nD) : W5 m ρ c (Proc.devRef .tc main_v6) = W4 m ρ c (Proc.devRef .tc main_v6) := by host_read
theorem W5_v29 (c : Dev nD) : W5 m ρ c (Proc.devRef .tc main_v29) = W4 m ρ c (Proc.devRef .tc main_v29) := by host_read
theorem W5_arg2 (c : Dev nD) : W5 m ρ c (Proc.devRef .tc main_arg2) = W4 m ρ c (Proc.devRef .tc main_arg2) := by host_read
theorem W5_arg7 (c : Dev nD) : W5 m ρ c (Proc.devRef .tc main_arg7) = W4 m ρ c (Proc.devRef .tc main_arg7) := by host_read
theorem W5_arg8 (c : Dev nD) : W5 m ρ c (Proc.devRef .tc main_arg8) = W4 m ρ c (Proc.devRef .tc main_arg8) := by host_read
theorem W5_arg9 (c : Dev nD) : W5 m ρ c (Proc.devRef .tc main_arg9) = W4 m ρ c (Proc.devRef .tc main_arg9) := by host_read
theorem W5_arg10 (c : Dev nD) : W5 m ρ c (Proc.devRef .tc main_arg10) = W4 m ρ c (Proc.devRef .tc main_arg10) := by host_read
theorem W6_v3 (c : Dev nD) : W6 m ρ c (Proc.devRef .tc main_v3) = W5 m ρ c (Proc.devRef .tc main_v3) := W6_of_ne m ρ c main_v3 (by decide)
theorem W6_v6 (c : Dev nD) : W6 m ρ c (Proc.devRef .tc main_v6) = W5 m ρ c (Proc.devRef .tc main_v6) := W6_of_ne m ρ c main_v6 (by decide)
theorem W6_v29 (c : Dev nD) : W6 m ρ c (Proc.devRef .tc main_v29) = W5 m ρ c (Proc.devRef .tc main_v29) := W6_of_ne m ρ c main_v29 (by decide)
theorem W6_arg2 (c : Dev nD) : W6 m ρ c (Proc.devRef .tc main_arg2) = W5 m ρ c (Proc.devRef .tc main_arg2) := W6_of_ne m ρ c main_arg2 (by decide)
theorem W6_arg7 (c : Dev nD) : W6 m ρ c (Proc.devRef .tc main_arg7) = W5 m ρ c (Proc.devRef .tc main_arg7) := W6_of_ne m ρ c main_arg7 (by decide)
theorem W6_arg8 (c : Dev nD) : W6 m ρ c (Proc.devRef .tc main_arg8) = W5 m ρ c (Proc.devRef .tc main_arg8) := W6_of_ne m ρ c main_arg8 (by decide)
theorem W6_arg9 (c : Dev nD) : W6 m ρ c (Proc.devRef .tc main_arg9) = W5 m ρ c (Proc.devRef .tc main_arg9) := W6_of_ne m ρ c main_arg9 (by decide)
theorem W6_arg10 (c : Dev nD) : W6 m ρ c (Proc.devRef .tc main_arg10) = W5 m ρ c (Proc.devRef .tc main_arg10) := W6_of_ne m ρ c main_arg10 (by decide)
theorem W7_v3 (c : Dev nD) : W7 m ρ c (Proc.devRef .tc main_v3) = W6 m ρ c (Proc.devRef .tc main_v3) := W7_of_ne m ρ c main_v3 (by decide)
theorem W7_v6 (c : Dev nD) : W7 m ρ c (Proc.devRef .tc main_v6) = W6 m ρ c (Proc.devRef .tc main_v6) := W7_of_ne m ρ c main_v6 (by decide)
theorem W7_v29 (c : Dev nD) : W7 m ρ c (Proc.devRef .tc main_v29) = W6 m ρ c (Proc.devRef .tc main_v29) := W7_of_ne m ρ c main_v29 (by decide)
theorem W7_arg2 (c : Dev nD) : W7 m ρ c (Proc.devRef .tc main_arg2) = W6 m ρ c (Proc.devRef .tc main_arg2) := W7_of_ne m ρ c main_arg2 (by decide)
theorem W7_arg8 (c : Dev nD) : W7 m ρ c (Proc.devRef .tc main_arg8) = W6 m ρ c (Proc.devRef .tc main_arg8) := W7_of_ne m ρ c main_arg8 (by decide)
theorem W7_arg9 (c : Dev nD) : W7 m ρ c (Proc.devRef .tc main_arg9) = W6 m ρ c (Proc.devRef .tc main_arg9) := W7_of_ne m ρ c main_arg9 (by decide)
theorem W7_arg10 (c : Dev nD) : W7 m ρ c (Proc.devRef .tc main_arg10) = W6 m ρ c (Proc.devRef .tc main_arg10) := W7_of_ne m ρ c main_arg10 (by decide)
theorem W8_arg9 (c : Dev nD) : W8 m ρ c (Proc.devRef .tc main_arg9) = W7 m ρ c (Proc.devRef .tc main_arg9) := by host_read

/-- From region 0's entry to region 3's host stretch, the edge list's stages and the later arguments stay put. -/
theorem W7_v3_eq (c : Dev nD) : W7 m ρ c (Proc.devRef .tc main_v3) = W3 m ρ c (Proc.devRef .tc main_v3) :=
  (W7_v3 m ρ c).trans ((W6_v3 m ρ c).trans ((W5_v3 m ρ c).trans (W4_v3 m ρ c)))
theorem W7_v6_eq (c : Dev nD) : W7 m ρ c (Proc.devRef .tc main_v6) = W3 m ρ c (Proc.devRef .tc main_v6) :=
  (W7_v6 m ρ c).trans ((W6_v6 m ρ c).trans ((W5_v6 m ρ c).trans (W4_v6 m ρ c)))
theorem W7_v29_eq (c : Dev nD) : W7 m ρ c (Proc.devRef .tc main_v29) = W3 m ρ c (Proc.devRef .tc main_v29) :=
  (W7_v29 m ρ c).trans ((W6_v29 m ρ c).trans ((W5_v29 m ρ c).trans (W4_v29 m ρ c)))
theorem W7_arg2_eq (c : Dev nD) : W7 m ρ c (Proc.devRef .tc main_arg2) = W3 m ρ c (Proc.devRef .tc main_arg2) :=
  (W7_arg2 m ρ c).trans ((W6_arg2 m ρ c).trans ((W5_arg2 m ρ c).trans (W4_arg2 m ρ c)))
theorem W7_arg8_eq (c : Dev nD) : W7 m ρ c (Proc.devRef .tc main_arg8) = W3 m ρ c (Proc.devRef .tc main_arg8) :=
  (W7_arg8 m ρ c).trans ((W6_arg8 m ρ c).trans ((W5_arg8 m ρ c).trans (W4_arg8 m ρ c)))
theorem W7_arg9_eq (c : Dev nD) : W7 m ρ c (Proc.devRef .tc main_arg9) = W3 m ρ c (Proc.devRef .tc main_arg9) :=
  (W7_arg9 m ρ c).trans ((W6_arg9 m ρ c).trans ((W5_arg9 m ρ c).trans (W4_arg9 m ρ c)))
theorem W7_arg10_eq (c : Dev nD) : W7 m ρ c (Proc.devRef .tc main_arg10) = W3 m ρ c (Proc.devRef .tc main_arg10) :=
  (W7_arg10 m ρ c).trans ((W6_arg10 m ρ c).trans ((W5_arg10 m ρ c).trans (W4_arg10 m ρ c)))
theorem W6_arg7_eq (c : Dev nD) : W6 m ρ c (Proc.devRef .tc main_arg7) = W3 m ρ c (Proc.devRef .tc main_arg7) :=
  (W6_arg7 m ρ c).trans ((W5_arg7 m ρ c).trans (W4_arg7 m ρ c))

/-! ## The host stretch between regions 0 and 1: the first propagation, and the three rows -/

/-- The first propagation (gather at the sources, scale by the edge weights, scatter-add at the targets) of what
    region 0 left, under what the edge-list buffers and region 0's output hold. -/
theorem W5_v43 (c : Dev nD) (x0 : (⟨Cert.ReferenceIdeal.S100000x128, .f32⟩ : BufTy).Contents (Elt F)) (x1 : (⟨Cert.ReferenceIdeal.S2x1600000, .i32⟩ : BufTy).Contents (Elt F)) (x3 : (⟨Cert.ReferenceIdeal.S128x128, .f32⟩ : BufTy).Contents (Elt F))
    (h3 : W4 m ρ c (Proc.devRef .tc main_v3) = val_main_v3 (F := F) x1) (h6 : W4 m ρ c (Proc.devRef .tc main_v6) = val_main_v6 (F := F) x1)
    (h29 : W4 m ρ c (Proc.devRef .tc main_v29) = val_main_v29 (F := F) x1) (h30 : W4 m ρ c (Proc.devRef .tc main_v30) = val_main_v30 (F := F) x0 x3) :
    W5 m ρ c (Proc.devRef .tc main_v43) = val_main_v43 (F := F) x0 x1 x3 := by
  host_read
  rw [h3, h6, h29, h30]
  rfl

/-- The bias, as the [1, 128] row region 1 reads: a reshape of the [128] argument. -/
theorem W5_v48 (c : Dev nD) (x4 : (⟨Cert.ReferenceIdeal.S128, .f32⟩ : BufTy).Contents (Elt F)) (h4 : W4 m ρ c (Proc.devRef .tc main_arg4) = x4) :
    W5 m ρ c (Proc.devRef .tc main_v48) = shapeCast S1x128 x4 Cert.KernelIdeal.Gen.shapeCasts_S128_S1x128 := by
  host_read
  rw [h4]
  rfl
/-- The scale row: the [128] argument over the square root of 1.00001, reshaped. -/
theorem W5_v49 (c : Dev nD) (x5 : (⟨Cert.ReferenceIdeal.S128, .f32⟩ : BufTy).Contents (Elt F)) (h5 : W4 m ρ c (Proc.devRef .tc main_arg5) = x5) :
    W5 m ρ c (Proc.devRef .tc main_v49) = shapeCast S1x128 (val_main_v50 (F := F) x5) Cert.KernelIdeal.Gen.shapeCasts_S128_S1x128 := by
  host_read
  rw [h5]
  rfl
/-- The shift row. -/
theorem W5_v50 (c : Dev nD) (x6 : (⟨Cert.ReferenceIdeal.S128, .f32⟩ : BufTy).Contents (Elt F)) (h6 : W4 m ρ c (Proc.devRef .tc main_arg6) = x6) :
    W5 m ρ c (Proc.devRef .tc main_v50) = shapeCast S1x128 x6 Cert.KernelIdeal.Gen.shapeCasts_S128_S1x128 := by
  host_read
  rw [h6]
  rfl

/-! ## The host stretch between regions 2 and 3: the second propagation, the bias, the mean pool -/

theorem W8_v80 (c : Dev nD) (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S100000, .i32⟩ : BufTy).Contents (Elt F)) (x3 : (⟨Cert.ReferenceIdeal.S128x128, .f32⟩ : BufTy).Contents (Elt F)) (x4 x5 x6 : (⟨Cert.ReferenceIdeal.S128, .f32⟩ : BufTy).Contents (Elt F)) (x7 : (⟨Cert.ReferenceIdeal.S128x128, .f32⟩ : BufTy).Contents (Elt F)) (x8 : (⟨Cert.ReferenceIdeal.S128, .f32⟩ : BufTy).Contents (Elt F))
    (h3 : W7 m ρ c (Proc.devRef .tc main_v3) = val_main_v3 (F := F) x1) (h6 : W7 m ρ c (Proc.devRef .tc main_v6) = val_main_v6 (F := F) x1)
    (h29 : W7 m ρ c (Proc.devRef .tc main_v29) = val_main_v29 (F := F) x1)
    (h52 : W7 m ρ c (Proc.devRef .tc main_v52) = val_main_v58 (F := F) x0 x1 x3 x4 x5 x6 x7)
    (h8 : W7 m ρ c (Proc.devRef .tc main_arg8) = x8) (h2 : W7 m ρ c (Proc.devRef .tc main_arg2) = x2) :
    W8 m ρ c (Proc.devRef .tc main_v80) = val_main_v86 (F := F) x0 x1 x2 x3 x4 x5 x6 x7 x8 := by
  host_read
  rw [h3, h6, h29, h52, h8, h2]
  rfl

/-- The classifier's bias, as the [1, 10] row region 3 reads. -/
theorem W8_v81 (c : Dev nD) (x10 : (⟨Cert.ReferenceIdeal.S10, .f32⟩ : BufTy).Contents (Elt F)) (h10 : W7 m ρ c (Proc.devRef .tc main_arg10) = x10) :
    W8 m ρ c (Proc.devRef .tc main_v81) = shapeCast S1x10 x10 Cert.KernelIdeal.Gen.shapeCasts_S10_S1x10 := by
  host_read
  rw [h10]
  rfl

end Cert.KernelIdeal.Fold

end
-- ==== Proof.RefOps.lean ====
/-
  The reference's side of the three places where the two programs differ, each as one named function of whole arrays,
  generic in the float family: a dense layer `x · W` over all 100000 rows, the affine map followed by the positive part
  `max ((conv + b) · s + β, 0)` with the three row vectors `b`, `s`, `β` of shape [1, 128] repeated down the rows, and the
  classifier head: logits `g · W + b` and the row-wise log-softmax `z - max_row z - log (Σ_row exp (z - max_row z))`.
  The kernel computes the same three maps tile by tile; the value lemmas of the four kernel regions state each region's
  output array as one of these functions of the region's input arrays.
-/
import proofs.«101137_j3058016714895_1_alg».proof.Proof.Gen.ReferenceIdeal

noncomputable section

namespace Cert.RefOps

open Cert.ReferenceIdeal Cert.ReferenceIdeal.Gen Idealize.ShloMosaic

variable {F : FTy → Type} [FloatOps F]

/-- A dense layer on the host: every row of `x` times the matrix `w`. -/
abbrev dense (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- A [1, 128] row repeated down the 100000 rows. -/
abbrev rows (b : (⟨S1x128, .f32⟩ : BufTy).Contents (Elt F)) : (⟨S100000x128, .f32⟩ : BufTy).Contents (Elt F) :=
  broadcastInDim S100000x128 ![0, 1] bcast_S1x128_S100000x128_0_1 b

/-- The zero array the positive part is taken against. -/
abbrev zeros : (⟨S100000x128, .f32⟩ : BufTy).Contents (Elt F) :=
  broadcastInDim S100000x128 ![] bcast_S_S100000x128 (constant (F := F) S_ .f32 0x00000000#32)

/-- `max ((conv + b) · s + β, 0)`, entry by entry, the three rows repeated down the array. -/
abbrev affineRelu (conv : (⟨S100000x128, .f32⟩ : BufTy).Contents (Elt F)) (b s β : (⟨S1x128, .f32⟩ : BufTy).Contents (Elt F)) :
    (⟨S100000x128, .f32⟩ : BufTy).Contents (Elt F) :=
  maximumf (addf (mulf (addf conv (rows b)) (rows s)) (rows β)) zeros

/-- The classifier's logits `g · w + b`, the bias row repeated down the 512 rows. -/
abbrev logits (g : (⟨S512x128, .f32⟩ : BufTy).Contents (Elt F)) (w : (⟨S128x10, .f32⟩ : BufTy).Contents (Elt F))
    (b : (⟨S1x10, .f32⟩ : BufTy).Contents (Elt F)) : (⟨S512x10, .f32⟩ : BufTy).Contents (Elt F) :=
  addf (Host.dotGeneral dot_S512x128_S128x10_S512x10_1_0_0_1_n_n none g w) (broadcastInDim S512x10 ![0, 1] bcast_S1x10_S512x10_0_1 b)

/-- A column of 512 row values repeated across the 10 classes. -/
abbrev cols (v : (⟨S512, .f32⟩ : BufTy).Contents (Elt F)) : (⟨S512x10, .f32⟩ : BufTy).Contents (Elt F) :=
  broadcastInDim S512x10 ![0, 1] bcast_S512x1_S512x10_0_1 (broadcastInDim S512x1 ![0] bcast_S512_S512x1_0 v)

/-- Each row's maximum, taken from minus infinity. -/
abbrev rowMax (z : (⟨S512x10, .f32⟩ : BufTy).Contents (Elt F)) : (⟨S512, .f32⟩ : BufTy).Contents (Elt F) :=
  maximumf (broadcastInDim S512 ![] bcast_S_S512 (constant (F := F) S_ .f32 0xFF800000#32))
    (Host.reduce FloatOps.maximumf z (constant (F := F) S_ .f32 0xFF800000#32) reducesTo_S512x10_S512_d1 h_S_)

/-- Every entry less its row's maximum. -/
abbrev shifted (z : (⟨S512x10, .f32⟩ : BufTy).Contents (Elt F)) : (⟨S512x10, .f32⟩ : BufTy).Contents (Elt F) :=
  subf z (cols (rowMax z))

/-- The row-wise log-softmax: the shifted entry less the logarithm of its row's sum of exponentials. -/
abbrev logSoftmax (z : (⟨S512x10, .f32⟩ : BufTy).Contents (Elt F)) : (⟨S512x10, .f32⟩ : BufTy).Contents (Elt F) :=
  subf (shifted z) (broadcastInDim S512x10 ![0, 1] bcast_S512x1_S512x10_0_1
    (Host.log (broadcastInDim S512x1 ![0] bcast_S512_S512x1_0
      (Host.reduceAdd (Host.exp (shifted z)) (constant (F := F) S_ .f32 0x00000000#32) reducesTo_S512x10_S512_d1 h_S_))))

end Cert.RefOps

end
-- ==== Proof.Dense1.lean ====
/-
  The first dense layer's kernel region, read as a value at the extended reals. The region walks the 100000 rows in 10
  tiles of 10000; at tile `t` its body multiplies the tile's rows by the whole 128 × 128 matrix into a zero accumulator
  (the two roundings to bf16 on the way in are the identity on extended reals) and writes the 10000 × 128 product
  back as tile `t` of the output. Entry (r, c) of tile `t` is Σ_k x[10000·t + r, k] · w[k, c]: the same sum as entry
  (10000·t + r, c) of the one whole product `x · w`, so each written-back tile is a block of that whole product, the ten
  tiles cover every row, and the output array ends as the whole product of the region's two input arrays.
-/
import proofs.«101137_j3058016714895_1_alg».proof.Proof.Gen.KernelIdeal.Frame
import proofs.«101137_j3058016714895_1_alg».proof.Proof.RefOps
import proofs.«101137_j3058016714895_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Cert.ReferenceIdeal.ReadP (val_main_v30 val_main_v30_apply lidx_main_v30 ridx_main_v30)

/-! ## One tile's product at an entry -/

theorem lhs_tile_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_tile_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_tile_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_tile_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `j 0` of the tile at column `k`: the left factor of the `k`-th term of entry `j`. -/
abbrev tileL (j : S10000x128.Idx) (k : Fin 128) : S10000x128.Idx := fun a => match a with
  | ⟨0, _⟩ => ⟨(j 0).val, (j 0).isLt⟩
  | ⟨1, _⟩ => ⟨k.val, k.isLt⟩
/-- Row `k` of the matrix at column `j 1`: the right factor. -/
abbrev tileR (j : S10000x128.Idx) (k : Fin 128) : S128x128.Idx := fun a => match a with
  | ⟨0, _⟩ => ⟨k.val, k.isLt⟩
  | ⟨1, _⟩ => ⟨(j 1).val, (j 1).isLt⟩

/-- The body's stored value at entry `j` of the tile: the sum over the 128 columns of the tile's row times the matrix's
    column, nothing rounded and nothing accumulated before it. -/
theorem tile_apply (x : Vec Ideal S10000x128 .f32) (w : Vec Ideal S128x128 .f32) (j : S10000x128.Idx) :
    k0_pay1 (F := Ideal) x w j = ∑ k : Fin 128, x (tileL j k) * w (tileR j k) := by
  unfold k0_pay1
  show FloatOps.matmul (F := Ideal) dot_S10000x128_S128x128_S10000x128_1_0_0_1_n_n none (truncf (F := Ideal) .bf16 x bitsLt_bf16_f32) (truncf (F := Ideal) .bf16 w bitsLt_bf16_f32) (constant (F := Ideal) S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = tileL j k := funext fun a => Fin.ext (by
    match a with
    | ⟨0, _⟩ => exact lhs_tile_0 _ _
    | ⟨1, _⟩ => exact (lhs_tile_1 _ _).trans hk)
  have er : dot_S10000x128_S128x128_S10000x128_1_0_0_1_n_n.rhsIdx j ((ValueIdx.contrEquiv1 dot_S10000x128_S128x128_S10000x128_1_0_0_1_n_n 128 rfl rfl).symm k) = tileR j k := funext fun a => Fin.ext (by
    match a with
    | ⟨0, _⟩ => exact (rhs_tile_0 _ _).trans hk
    | ⟨1, _⟩ => exact rhs_tile_1 _ _)
  rw [el, er]
  rfl

/-- A tile's entry is the whole product's entry whenever the tile's row `j 0` is the whole array's row `i 0`, the
    columns agree, and the matrix is the same: both are the same sum over the 128 inner columns. -/
theorem tile_eq_whole (X : (⟨Cert.ReferenceIdeal.S100000x128, .f32⟩ : BufTy).Contents (Elt Ideal)) (W : (⟨Cert.ReferenceIdeal.S128x128, .f32⟩ : BufTy).Contents (Elt Ideal))
    (x : Vec Ideal S10000x128 .f32) (w : Vec Ideal S128x128 .f32) (j : S10000x128.Idx) (i : Cert.ReferenceIdeal.S100000x128.Idx)
    (hx : ∀ k : Fin 128, x (tileL j k) = X (lidx_main_v30 i k)) (hw : ∀ k : Fin 128, w (tileR j k) = W (ridx_main_v30 i k)) :
    k0_pay1 (F := Ideal) x w j = Cert.RefOps.dense (F := Ideal) X W i := by
  rw [tile_apply]
  refine Eq.trans ?_ (val_main_v30_apply X W i).symm
  exact Finset.sum_congr rfl fun k _ => by rw [hx k, hw k]

/-! ## The region's output array -/

theorem hz : (![0, 0] : Fin 2 → Nat) = fun _ => 0 := funext fun a => by fin_cases a <;> rfl

/-- The printed index maps over the ten points: the row-tile window and the output window sit on the same tile of rows,
    on column block 0; the matrix window stays on its one block; the output's tile index is below 10. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row tiles is some point's output block. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is tile `t` of the whole product of the region's two input arrays. -/
theorem flushed_eq (c : Dev nD) (t : Fin cfg0.N) :
    (dat0 (F := Ideal) V c).flushed 2 t
      = ((cfg0.win 2).blk t).view.read (Elt Ideal) (Cert.RefOps.dense (F := Ideal) (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (F := Ideal) (iblk0 V c 0 t) (iblk0 V c 1 t) j
    = Cert.RefOps.dense (F := Ideal) (V c main_arg0) (V c main_arg3) (((cfg0.win 2).blk t).view.emb j)
  refine tile_eq_whole (V c main_arg0) (V c main_arg3) (iblk0 V c 0 t) (iblk0 V c 1 t) j (((cfg0.win 2).blk t).view.emb j) (fun k => ?_) (fun k => ?_)
  · show V c main_arg0 (((cfg0.win 0).blk t).view.emb (tileL j k)) = V c main_arg0 (lidx_main_v30 (((cfg0.win 2).blk t).view.emb j) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (tileR j k)) = V c main_arg3 (ridx_main_v30 (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row lies in the tile numbered by its row index divided by 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the whole product of the two input arrays as the region found them. -/
theorem final (c : Dev nD) :
    (dat0 (F := Ideal) V c).arrAt 2 cfg0.N = Cert.RefOps.dense (F := Ideal) (V c main_arg0) (V c main_arg3) :=
  (dat0 (F := Ideal) V c).arrAt_eq_of_cover 2 (Cert.RefOps.dense (F := Ideal) (V c main_arg0) (V c main_arg3))
    (fun t _ => flushed_eq V c t) cover

end Cert.KernelIdeal.Dense1

end
-- ==== Proof.Dense2.lean ====
/-
  The second dense layer's kernel region, read as a value at the extended reals. The region walks the 100000 rows in 10
  tiles of 10000; at tile `t` its body multiplies the tile's rows by the whole 128 × 128 matrix into a zero accumulator
  (the two roundings to bf16 on the way in are the identity on extended reals) and writes the 10000 × 128 product
  back as tile `t` of the output. Entry (r, c) of tile `t` is Σ_k x[10000·t + r, k] · w[k, c]: the same sum as entry
  (10000·t + r, c) of the one whole product `x · w`, so each written-back tile is a block of that whole product, the ten
  tiles cover every row, and the output array ends as the whole product of the region's two input arrays.
-/
import proofs.«101137_j3058016714895_1_alg».proof.Proof.Gen.KernelIdeal.Frame
import proofs.«101137_j3058016714895_1_alg».proof.Proof.RefOps
import proofs.«101137_j3058016714895_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Cert.ReferenceIdeal.ReadP (val_main_v30 val_main_v30_apply lidx_main_v30 ridx_main_v30)

/-! ## One tile's product at an entry -/

theorem lhs_tile_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_tile_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_tile_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_tile_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `j 0` of the tile at column `k`: the left factor of the `k`-th term of entry `j`. -/
abbrev tileL (j : S10000x128.Idx) (k : Fin 128) : S10000x128.Idx := fun a => match a with
  | ⟨0, _⟩ => ⟨(j 0).val, (j 0).isLt⟩
  | ⟨1, _⟩ => ⟨k.val, k.isLt⟩
/-- Row `k` of the matrix at column `j 1`: the right factor. -/
abbrev tileR (j : S10000x128.Idx) (k : Fin 128) : S128x128.Idx := fun a => match a with
  | ⟨0, _⟩ => ⟨k.val, k.isLt⟩
  | ⟨1, _⟩ => ⟨(j 1).val, (j 1).isLt⟩

/-- The body's stored value at entry `j` of the tile: the sum over the 128 columns of the tile's row times the matrix's
    column, nothing rounded and nothing accumulated before it. -/
theorem tile_apply (x : Vec Ideal S10000x128 .f32) (w : Vec Ideal S128x128 .f32) (j : S10000x128.Idx) :
    k2_pay1 (F := Ideal) x w j = ∑ k : Fin 128, x (tileL j k) * w (tileR j k) := by
  unfold k2_pay1
  show FloatOps.matmul (F := Ideal) dot_S10000x128_S128x128_S10000x128_1_0_0_1_n_n none (truncf (F := Ideal) .bf16 (shapeCast S10000x128 x shapeCasts_S10000x128_S10000x128) bitsLt_bf16_f32) (truncf (F := Ideal) .bf16 w bitsLt_bf16_f32) (constant (F := Ideal) S10000x128 .f32 0x00000000#32) j = _
  rw [shapeCast_self]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = tileL j k := funext fun a => Fin.ext (by
    match a with
    | ⟨0, _⟩ => exact lhs_tile_0 _ _
    | ⟨1, _⟩ => exact (lhs_tile_1 _ _).trans hk)
  have er : dot_S10000x128_S128x128_S10000x128_1_0_0_1_n_n.rhsIdx j ((ValueIdx.contrEquiv1 dot_S10000x128_S128x128_S10000x128_1_0_0_1_n_n 128 rfl rfl).symm k) = tileR j k := funext fun a => Fin.ext (by
    match a with
    | ⟨0, _⟩ => exact (rhs_tile_0 _ _).trans hk
    | ⟨1, _⟩ => exact rhs_tile_1 _ _)
  rw [el, er]
  rfl

/-- A tile's entry is the whole product's entry whenever the tile's row `j 0` is the whole array's row `i 0`, the
    columns agree, and the matrix is the same: both are the same sum over the 128 inner columns. -/
theorem tile_eq_whole (X : (⟨Cert.ReferenceIdeal.S100000x128, .f32⟩ : BufTy).Contents (Elt Ideal)) (W : (⟨Cert.ReferenceIdeal.S128x128, .f32⟩ : BufTy).Contents (Elt Ideal))
    (x : Vec Ideal S10000x128 .f32) (w : Vec Ideal S128x128 .f32) (j : S10000x128.Idx) (i : Cert.ReferenceIdeal.S100000x128.Idx)
    (hx : ∀ k : Fin 128, x (tileL j k) = X (lidx_main_v30 i k)) (hw : ∀ k : Fin 128, w (tileR j k) = W (ridx_main_v30 i k)) :
    k2_pay1 (F := Ideal) x w j = Cert.RefOps.dense (F := Ideal) X W i := by
  rw [tile_apply]
  refine Eq.trans ?_ (val_main_v30_apply X W i).symm
  exact Finset.sum_congr rfl fun k _ => by rw [hx k, hw k]

/-! ## The region's output array -/

theorem hz : (![0, 0] : Fin 2 → Nat) = fun _ => 0 := funext fun a => by fin_cases a <;> rfl

/-- The printed index maps over the ten points: the row-tile window and the output window sit on the same tile of rows,
    on column block 0; the matrix window stays on its one block; the output's tile index is below 10. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row tiles is some point's output block. -/
theorem idx_onto : ∀ q : Fin 10, ∃ t : Fin cfg2.N, win2_2.index t = ![q.val, 0] :=
  (by decide +kernel : ∀ q : Fin 10, ∃ t : Fin grid2.N, win2_2.index t = ![q.val, 0])

/-- What point `t` writes back is tile `t` of the whole product of the region's two input arrays. -/
theorem flushed_eq (c : Dev nD) (t : Fin cfg2.N) :
    (dat2 (F := Ideal) V c).flushed 2 t
      = ((cfg2.win 2).blk t).view.read (Elt Ideal) (Cert.RefOps.dense (F := Ideal) (V c main_v51) (V c main_arg7)) := by
  show (cfg2.win 2).cut (grid2.coords t) ((dat2 (F := Ideal) V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts t
  funext j
  show k2_pay1 (F := Ideal) (iblk2 V c 0 t) (iblk2 V c 1 t) j
    = Cert.RefOps.dense (F := Ideal) (V c main_v51) (V c main_arg7) (((cfg2.win 2).blk t).view.emb j)
  refine tile_eq_whole (V c main_v51) (V c main_arg7) (iblk2 V c 0 t) (iblk2 V c 1 t) j (((cfg2.win 2).blk t).view.emb j) (fun k => ?_) (fun k => ?_)
  · show V c main_v51 (((cfg2.win 0).blk t).view.emb (tileL j k)) = V c main_v51 (lidx_main_v30 (((cfg2.win 2).blk t).view.emb j) k)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c main_arg7 (((cfg2.win 1).blk t).view.emb (tileR j k)) = V c main_arg7 (ridx_main_v30 (((cfg2.win 2).blk t).view.emb j) k)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v52).slice (win2_2.rect t)).set ↔ _
  rw [View.set_slice_whole, Rect.mem_set_unit]
  exact Iff.rfl

/-- Every row lies in the tile numbered by its row index divided by 10000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region: the whole product of the two input arrays as the region found them. -/
theorem final (c : Dev nD) :
    (dat2 (F := Ideal) V c).arrAt 2 cfg2.N = Cert.RefOps.dense (F := Ideal) (V c main_v51) (V c main_arg7) :=
  (dat2 (F := Ideal) V c).arrAt_eq_of_cover 2 (Cert.RefOps.dense (F := Ideal) (V c main_v51) (V c main_arg7))
    (fun t _ => flushed_eq V c t) cover

end Cert.KernelIdeal.Dense2

end
-- ==== Proof.Affine.lean ====
/-
  The affine-and-positive-part region, read as a value at the extended reals. The region walks the 100000 rows of its
  input in 10 tiles of 10000; the three row vectors b, s, β of shape [1, 128] are the same whole block at every tile.
  At tile t the body repeats each row vector down the 10000 rows of the tile and stores, entry by entry,
  max ((x + b) · s + β, 0), then writes the 10000 × 128 result back as tile t of the output. Entry (r, c) of tile t is
  max ((x[10000·t + r, c] + b[0, c]) · s[0, c] + β[0, c], 0), which is entry (10000·t + r, c) of the one whole array
  max ((x + rows b) · rows s + rows β, 0) with the rows repeated down all 100000 rows: each written-back tile is a block
  of that whole array, the ten tiles cover every row, and the output array ends as that whole array.
-/
import proofs.«101137_j3058016714895_1_alg».proof.Proof.Gen.KernelIdeal.Frame
import proofs.«101137_j3058016714895_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Affine

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## One tile's entry -/

/-- The entry of a [1, 128] row vector that sits above column \`j 1\` of the tile. -/
abbrev rowAt (j : S10000x128.Idx) : S1x128.Idx := fun a => match a with
  | ⟨0, _⟩ => ⟨0, Nat.one_pos⟩
  | ⟨1, _⟩ => ⟨(j 1).val, (j 1).isLt⟩

/-- A row vector repeated down the tile reads, at entry \`j\`, the row's entry above column \`j 1\`. -/
theorem rep_apply (b : Vec Ideal S1x128 .f32) (j : S10000x128.Idx) :
    broadcastTo S10000x128 b broadcasts_S1x128_S10000x128 j = b (rowAt j) :=
  broadcastTo_apply b broadcasts_S1x128_S10000x128 j (rowAt j) fun a => by
    match a with
    | ⟨0, _⟩ => rfl
    | ⟨1, _⟩ => rfl

/-- The body's stored value at entry \`j\` of the tile: the affine map of the tile's entry with the three rows' entries
    above its column, then the larger of that and zero. -/
theorem pay_apply (x : Vec Ideal S10000x128 .f32) (b s β : Vec Ideal S1x128 .f32) (j : S10000x128.Idx) :
    k1_pay1 (F := Ideal) x b s β j
      = max ((x j + b (rowAt j)) * s (rowAt j) + β (rowAt j)) (Ideal.ofBits .f32 0x00000000#32) := by
  unfold k1_pay1
  show maximumf (F := Ideal)
      (addf (mulf (addf (shapeCast S10000x128 x shapeCasts_S10000x128_S10000x128)
                (broadcastTo S10000x128 (shapeCast S1x128 b shapeCasts_S1x128_S1x128) broadcasts_S1x128_S10000x128))
              (broadcastTo S10000x128 (shapeCast S1x128 s shapeCasts_S1x128_S1x128) broadcasts_S1x128_S10000x128))
            (broadcastTo S10000x128 (shapeCast S1x128 β shapeCasts_S1x128_S1x128) broadcasts_S1x128_S10000x128))
      (broadcast S10000x128 (Scalar.ofBits (F := Ideal) .f32 0x00000000#32)) j = _
  rw [ValueIdx.maximumf_apply, ValueIdx.addf_apply, ValueIdx.mulf_apply, ValueIdx.addf_apply]
  simp only [shapeCast_self]
  rw [rep_apply b j, rep_apply s j, rep_apply β j]
  rfl

/-! ## The whole array's entry -/

/-- The entry of a [1, 128] row vector that sits above column \`i 1\` of the whole array. -/
abbrev rowOf (i : Cert.ReferenceIdeal.S100000x128.Idx) : Cert.ReferenceIdeal.S1x128.Idx := fun a => match a with
  | ⟨0, _⟩ => ⟨0, Nat.one_pos⟩
  | ⟨1, _⟩ => ⟨(i 1).val, (i 1).isLt⟩

/-- A row vector repeated down the whole array reads, at entry \`i\`, the row's entry above column \`i 1\`. -/
theorem rows_apply (b : (⟨Cert.ReferenceIdeal.S1x128, .f32⟩ : BufTy).Contents (Elt Ideal)) (i : Cert.ReferenceIdeal.S100000x128.Idx) :
    Cert.RefOps.rows (F := Ideal) b i = b (rowOf i) :=
  broadcastInDim_apply ![0, 1] Cert.ReferenceIdeal.Gen.bcast_S1x128_S100000x128_0_1 b i (rowOf i) fun a => by
    match a with
    | ⟨0, _⟩ => rfl
    | ⟨1, _⟩ => rfl

/-- The zero array reads zero everywhere. -/
theorem zeros_apply (i : Cert.ReferenceIdeal.S100000x128.Idx) :
    Cert.RefOps.zeros (F := Ideal) i = Ideal.ofBits .f32 0x00000000#32 :=
  broadcastInDim_apply ![] Cert.ReferenceIdeal.Gen.bcast_S_S100000x128
    (constant (F := Ideal) Cert.ReferenceIdeal.S_ .f32 0x00000000#32) i (fun a => a.elim0) fun a => a.elim0

/-- The whole array at entry \`i\`: the same affine map and positive part, over the rows' entries above column \`i 1\`. -/
theorem ref_apply (X : (⟨Cert.ReferenceIdeal.S100000x128, .f32⟩ : BufTy).Contents (Elt Ideal))
    (B S' Β : (⟨Cert.ReferenceIdeal.S1x128, .f32⟩ : BufTy).Contents (Elt Ideal)) (i : Cert.ReferenceIdeal.S100000x128.Idx) :
    Cert.RefOps.affineRelu (F := Ideal) X B S' Β i
      = max ((X i + B (rowOf i)) * S' (rowOf i) + Β (rowOf i)) (Ideal.ofBits .f32 0x00000000#32) := by
  show max ((X i + Cert.RefOps.rows (F := Ideal) B i) * Cert.RefOps.rows (F := Ideal) S' i + Cert.RefOps.rows (F := Ideal) Β i)
      (Cert.RefOps.zeros (F := Ideal) i) = _
  rw [rows_apply, rows_apply, rows_apply, zeros_apply]

/-- A tile's entry is the whole array's entry whenever the tile's entry of the input is the whole input's entry and the
    three rows' entries above the column agree. -/
theorem tile_eq_whole (X : (⟨Cert.ReferenceIdeal.S100000x128, .f32⟩ : BufTy).Contents (Elt Ideal))
    (B S' Β : (⟨Cert.ReferenceIdeal.S1x128, .f32⟩ : BufTy).Contents (Elt Ideal))
    (x : Vec Ideal S10000x128 .f32) (b s β : Vec Ideal S1x128 .f32) (j : S10000x128.Idx) (i : Cert.ReferenceIdeal.S100000x128.Idx)
    (hx : x j = X i) (hb : b (rowAt j) = B (rowOf i)) (hs : s (rowAt j) = S' (rowOf i)) (hβ : β (rowAt j) = Β (rowOf i)) :
    k1_pay1 (F := Ideal) x b s β j = Cert.RefOps.affineRelu (F := Ideal) X B S' Β i := by
  rw [pay_apply, ref_apply, hx, hb, hs, hβ]

/-! ## The region's output array -/

theorem hz : (![0, 0] : Fin 2 → Nat) = fun _ => 0 := funext fun a => by fin_cases a <;> rfl

/-- The printed index maps over the ten points: the input window and the output window sit on the same tile of rows, on
    column block 0; each row-vector window stays on its one block; the output's tile index is below 10. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row tiles is some point's output block. -/
theorem idx_onto : ∀ q : Fin 10, ∃ t : Fin cfg1.N, win1_4.index t = ![q.val, 0] :=
  (by decide +kernel : ∀ q : Fin 10, ∃ t : Fin grid1.N, win1_4.index t = ![q.val, 0])

/-- What point \`t\` writes back is tile \`t\` of the whole affine-and-positive-part array of the region's four input
    arrays. -/
theorem flushed_eq (c : Dev nD) (t : Fin cfg1.N) :
    (dat1 (F := Ideal) V c).flushed 4 t
      = ((cfg1.win 4).blk t).view.read (Elt Ideal)
          (Cert.RefOps.affineRelu (F := Ideal) (V c main_v43) (V c main_v48) (V c main_v49) (V c main_v50)) := by
  show (cfg1.win 4).cut (grid1.coords t) ((dat1 (F := Ideal) V c).after 4 t) = _
  rw [after1_4]
  unfold out1_4
  rw [View.canon_unit_zero hz]
  simp only [View.ld_unit_zero (S := S10000x128) hz, View.ld_unit_zero (S := S1x128) hz]
  obtain ⟨e0, e1, e2, e3, e4, e5, e6, e7, e8, e9⟩ := idx_facts t
  funext j
  show k1_pay1 (F := Ideal) (iblk1 V c 0 t) (iblk1 V c 1 t) (iblk1 V c 2 t) (iblk1 V c 3 t) j
    = Cert.RefOps.affineRelu (F := Ideal) (V c main_v43) (V c main_v48) (V c main_v49) (V c main_v50) (((cfg1.win 4).blk t).view.emb j)
  refine tile_eq_whole (V c main_v43) (V c main_v48) (V c main_v49) (V c main_v50)
    (iblk1 V c 0 t) (iblk1 V c 1 t) (iblk1 V c 2 t) (iblk1 V c 3 t) j (((cfg1.win 4).blk t).view.emb j) ?_ ?_ ?_ ?_
  · show V c main_v43 (((cfg1.win 0).blk t).view.emb j) = V c main_v43 (((cfg1.win 4).blk t).view.emb j)
    refine congrArg _ (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 128 + 1 * (j 1).val = win1_4.index t (1 : Fin 2) * 128 + 1 * (j 1).val; omega
  · show V c main_v48 (((cfg1.win 1).blk t).view.emb (rowAt j)) = V c main_v48 (rowOf (((cfg1.win 4).blk t).view.emb j))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_4.index t (1 : Fin 2) * 128 + 1 * (j 1).val; omega
  · show V c main_v49 (((cfg1.win 2).blk t).view.emb (rowAt j)) = V c main_v49 (rowOf (((cfg1.win 4).blk t).view.emb j))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_4.index t (1 : Fin 2) * 128 + 1 * (j 1).val; omega
  · show V c main_v50 (((cfg1.win 3).blk t).view.emb (rowAt j)) = V c main_v50 (rowOf (((cfg1.win 4).blk t).view.emb j))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the output array is in point \`t\`'s block iff each coordinate is in the block's range on its axis. -/
theorem mem_blk (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v51).slice (win1_4.rect t)).set ↔ _
  rw [View.set_slice_whole, Rect.mem_set_unit]
  exact Iff.rfl

/-- Every row lies in the tile numbered by its row index divided by 10000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- The output array after the region: the affine map and positive part of the four input arrays as the region found
    them. -/
theorem final (c : Dev nD) :
    (dat1 (F := Ideal) V c).arrAt 4 cfg1.N
      = Cert.RefOps.affineRelu (F := Ideal) (V c main_v43) (V c main_v48) (V c main_v49) (V c main_v50) :=
  (dat1 (F := Ideal) V c).arrAt_eq_of_cover 4
    (Cert.RefOps.affineRelu (F := Ideal) (V c main_v43) (V c main_v48) (V c main_v49) (V c main_v50))
    (fun t _ => flushed_eq V c t) cover

end Cert.KernelIdeal.Affine

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Head.lean ====
/-
  The classifier head's kernel region, read as a value at the extended reals. The region has one grid point, and the block
  of each of its four windows is its whole array: the pooled features g [512, 128], the classifier matrix W [128, 10], the
  bias row b [1, 10] and the output [512, 10]. The body multiplies g by W into a zero accumulator (the two roundings to
  bf16 on the way in are the identity on extended reals) and adds b to every row: entry (p, q) of the logits z is
  Σ_k g[p, k] · W[k, q] + b[0, q]. It then takes each row's maximum m[p], the fold of max from −∞ over the row's ten entries
  (taken once more against −∞), subtracts it, s[p, q] = z[p, q] − m[p], sums each row's exponentials from zero, and stores
  s[p, q] − log Σ_r exp s[p, r]. The host computes the same map with its own operations: the same sum of products, the same
  fold of max, the same sum from a zero initial value, the same exp and log; and its keep-dimension forms
  [512] → [512, 1] → [512, 10], like the kernel's shape cast followed by a broadcast, read entry p of the vector at (p, q).
  So the body's stored array is the row-wise log-softmax of the logits of its three loaded arrays; each loaded block is
  the whole input array; and the one written-back block is the whole output, which ends as that function of the region's
  three input arrays.
-/
import proofs.«101137_j3058016714895_1_alg».proof.Proof.Gen.KernelIdeal.Frame
import proofs.«101137_j3058016714895_1_alg».proof.Proof.RefOps
import proofs.«101137_j3058016714895_1_alg».proof.Proof.RefRead
import proofs.«101137_j3058016714895_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Idealize.ShloMosaic Idealize.ShloMosaic.TcCoe Idealize.SL.Sem
open Idealize.ShloMosaic.Pipeline (Dat Cfg Window)
open Idealize.ShloMosaic.ValueIdx (ix1 ix2)

variable (V : (c : Dev nD) → (b : Ref sig .tc) → Buf (Elt Ideal) ((c : Thread nD τ).loc b))

/-! ## The body's value in named stages -/

/-- The logits: the features times the classifier matrix into a zero accumulator, plus the bias row down the rows. -/
def kLogits (g : FVec Ideal S512x128 .f32) (w : FVec Ideal S128x10 .f32) (b : FVec Ideal S1x10 .f32) : FVec Ideal S512x10 .f32 :=
  addf (matmul dot_S512x128_S128x10_S512x10_1_0_0_1_n_n none
      (truncf (F := Ideal) .bf16 (shapeCast S512x128 g shapeCasts_S512x128_S512x128) bitsLt_bf16_f32)
      (truncf (F := Ideal) .bf16 w bitsLt_bf16_f32) (constant (F := Ideal) S512x10 .f32 0x00000000#32))
    (broadcastTo S512x10 (shapeCast S1x10 b shapeCasts_S1x10_S1x10) broadcasts_S1x10_S512x10)

/-- Each row's maximum from minus infinity, taken once more against a splat of minus infinity. -/
def kRowMax (z : FVec Ideal S512x10 .f32) : FVec Ideal S512 .f32 :=
  maximumf (broadcast S512 (Scalar.ofBits (F := Ideal) .f32 0xFF800000#32))
    (multiReduction (F := Ideal) .maximumf [1] S512 z 0xFF800000#32 reduces_S512x10_S512 (.inl rfl) rfl)

/-- A vector of 512 row values as a `[512, 1]` column repeated across the ten classes. -/
def kCols (v : FVec Ideal S512 .f32) : FVec Ideal S512x10 .f32 :=
  broadcastTo S512x10 (shapeCast S512x1 v shapeCasts_S512_S512x1) broadcasts_S512x1_S512x10

/-- Every entry less its row's maximum. -/
def kShifted (z : FVec Ideal S512x10 .f32) : FVec Ideal S512x10 .f32 := subf z (kCols (kRowMax z))

/-- Each row's sum from zero. -/
def kSum (e : FVec Ideal S512x10 .f32) : FVec Ideal S512 .f32 :=
  multiReduction (F := Ideal) .add [1] S512 e 0x00000000#32 reduces_S512x10_S512 (.inl rfl) rfl

/-- The logarithm of a vector of 512 row values, taken on the `[512, 1]` column and repeated across the ten classes. -/
def kLogCols (s : FVec Ideal S512 .f32) : FVec Ideal S512x10 .f32 :=
  broadcastTo S512x10 (log (shapeCast S512x1 s shapeCasts_S512_S512x1)) broadcasts_S512x1_S512x10

/-- From the logits on: the shifted entry less the logarithm of its row's sum of exponentials. -/
def kTail (z : FVec Ideal S512x10 .f32) : FVec Ideal S512x10 .f32 :=
  subf (kShifted z) (kLogCols (kSum (exp (kShifted z))))

/-- The body's stored value is these stages composed (the body's own term, regrouped). -/
theorem pay_eq (g : Vec Ideal S512x128 .f32) (w : Vec Ideal S128x10 .f32) (b : Vec Ideal S1x10 .f32) :
    k3_pay1 (F := Ideal) g w b = kTail (kLogits g w b) := rfl

/-! ## The host's layout forms read at an index (every extent, every element type) -/

section Layout
variable {α : Type}

/-- An `[a]` array placed on axis 0 of an `[a, 1]` column holds, in row `i`, entry `i`. -/
theorem bid_cast_col_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column repeated along axis 1 to `[a, b]` holds, at `(p, c)`, the column's entry of row `p`. -/
theorem bid_col_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row repeated down axis 0 to `[a, b]` holds, at `(p, c)`, the row's entry `c`. -/
theorem bid_row_apply {a b : ℕ} (v : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Layout

/-! ## The product at an entry -/

theorem lhs_k_0 (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
theorem lhs_k_1 (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q
theorem rhs_k_0 (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q
theorem rhs_k_1 (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The body's matrix product at entry `(p, q)`: the sum over the 128 inner columns of row `p` of the features times
    column `q` of the classifier matrix; the roundings on the way in and the zero accumulator leave nothing. -/
theorem kMatmul_apply (g : FVec Ideal S512x128 .f32) (w : FVec Ideal S128x10 .f32) (p : Fin 512) (q : Fin 10) :
    FloatOps.matmul (F := Ideal) dot_S512x128_S128x10_S512x10_1_0_0_1_n_n none (truncf (F := Ideal) .bf16 g bitsLt_bf16_f32)
        (truncf (F := Ideal) .bf16 w bitsLt_bf16_f32) (constant (F := Ideal) S512x10 .f32 0x00000000#32) (ix2 p q)
      = ∑ k : Fin 128, g (ix2 p k) * w (ix2 k q) := by
  rw [Ideal.matmul_constant_zero_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx (ix2 p q) ((ValueIdx.contrEquiv1 dot_S512x128_S128x10_S512x10_1_0_0_1_n_n 128 rfl rfl).symm k) = ix2 p k := funext fun a => Fin.ext (by
    match a with
    | ⟨0, _⟩ => exact lhs_k_0 _ _
    | ⟨1, _⟩ => exact (lhs_k_1 _ _).trans hk)
  have er : dot_S512x128_S128x10_S512x10_1_0_0_1_n_n.rhsIdx (ix2 p q) ((ValueIdx.contrEquiv1 dot_S512x128_S128x10_S512x10_1_0_0_1_n_n 128 rfl rfl).symm k) = ix2 k q := funext fun a => Fin.ext (by
    match a with
    | ⟨0, _⟩ => exact (rhs_k_0 _ _).trans hk
    | ⟨1, _⟩ => exact rhs_k_1 _ _)
  rw [el, er]
  rfl

open Cert.ReferenceIdeal.ReadP (lhs_main_v87_0 lhs_main_v87_1 rhs_main_v87_0 rhs_main_v87_1) in
/-- The host's product at the same entry is the same sum. -/
theorem rDot_apply (g : FVec Ideal Cert.ReferenceIdeal.S512x128 .f32) (w : FVec Ideal Cert.ReferenceIdeal.S128x10 .f32) (p : Fin 512) (q : Fin 10) :
    Host.dotGeneral (F := Ideal) Cert.ReferenceIdeal.dot_S512x128_S128x10_S512x10_1_0_0_1_n_n none g w (ix2 p q)
      = ∑ k : Fin 128, g (ix2 p k) * w (ix2 k q) := by
  simp only [Host.dotGeneral]
  rw [Ideal.dotGeneral_apply, ← Equiv.sum_comp (ValueIdx.contrEquiv1 Cert.ReferenceIdeal.dot_S512x128_S128x10_S512x10_1_0_0_1_n_n 128 rfl rfl).symm]
  refine Finset.sum_congr rfl fun k _ => ?_
  have hk := ValueIdx.contrEquiv1_symm_val Cert.ReferenceIdeal.dot_S512x128_S128x10_S512x10_1_0_0_1_n_n 128 rfl rfl k
  have el : Cert.ReferenceIdeal.dot_S512x128_S128x10_S512x10_1_0_0_1_n_n.lhsIdx (ix2 p q) ((ValueIdx.contrEquiv1 Cert.ReferenceIdeal.dot_S512x128_S128x10_S512x10_1_0_0_1_n_n 128 rfl rfl).symm k) = ix2 p k := funext fun a => Fin.ext (by
    match a with
    | ⟨0, _⟩ => exact lhs_main_v87_0 _ _
    | ⟨1, _⟩ => exact (lhs_main_v87_1 _ _).trans hk)
  have er : Cert.ReferenceIdeal.dot_S512x128_S128x10_S512x10_1_0_0_1_n_n.rhsIdx (ix2 p q) ((ValueIdx.contrEquiv1 Cert.ReferenceIdeal.dot_S512x128_S128x10_S512x10_1_0_0_1_n_n 128 rfl rfl).symm k) = ix2 k q := funext fun a => Fin.ext (by
    match a with
    | ⟨0, _⟩ => exact (rhs_main_v87_0 _ _).trans hk
    | ⟨1, _⟩ => exact rhs_main_v87_1 _ _)
  rw [el, er]

/-- The kernel's logits are the host's: the same product plus the same bias entry `b (0, q)`. -/
theorem kLogits_eq (g : FVec Ideal S512x128 .f32) (w : FVec Ideal S128x10 .f32) (b : FVec Ideal S1x10 .f32) :
    kLogits g w b = Cert.RefOps.logits (F := Ideal) g w b := by
  funext j
  obtain ⟨p, q, rfl⟩ : ∃ (p : Fin 512) (q : Fin 10), j = ix2 p q := ⟨j 0, j 1, ValueIdx.eq_ix2 j⟩
  unfold kLogits
  rw [shapeCast_self, shapeCast_self]
  show FloatOps.matmul (F := Ideal) dot_S512x128_S128x10_S512x10_1_0_0_1_n_n none (truncf (F := Ideal) .bf16 g bitsLt_bf16_f32)
        (truncf (F := Ideal) .bf16 w bitsLt_bf16_f32) (constant (F := Ideal) S512x10 .f32 0x00000000#32) (ix2 p q)
      + broadcastTo S512x10 b broadcasts_S1x10_S512x10 (ix2 p q)
    = Host.dotGeneral (F := Ideal) Cert.ReferenceIdeal.dot_S512x128_S128x10_S512x10_1_0_0_1_n_n none g w (ix2 p q)
      + broadcastInDim Cert.ReferenceIdeal.S512x10 ![0, 1] _ b (ix2 p q)
  rw [kMatmul_apply, rDot_apply, ValueIdx.broadcastTo_1b_ab_apply, bid_row_apply]

/-! ## The row maximum, the two column forms, the row sum -/

/-- The lane maximum of a row from minus infinity is the fold of `max` over the row's ten entries. -/
theorem kMaxRed_apply (z : FVec Ideal S512x10 .f32) (i : S512.Idx) :
    multiReduction (F := Ideal) .maximumf [1] S512 z 0xFF800000#32 reduces_S512x10_S512 (.inl rfl) rfl i
      = (Finset.univ : Finset (Fin (S512x10.size 1))).fold max (FloatOps.ofBits (F := Ideal) .f32 0xFF800000#32) (z ∘ reduces_S512x10_S512.lift i) :=
  Ideal.multiReduction_maximumf_single z 0xFF800000#32 reduces_S512x10_S512 (.inl rfl) rfl i

/-- The host's maximum over axis 1 from its initial value is the same fold. -/
theorem rMaxRed_apply (z : FVec Ideal S512x10 .f32) (h' : S512x10.ReducesTo [1] S512) (hu : 0 < S_.numel) (i : S512.Idx) :
    Host.reduce (FloatOps.maximumf (F := Ideal) (φ := .f32)) z (constant (F := Ideal) S_ .f32 0xFF800000#32) h' hu i
      = (Finset.univ : Finset (Fin (S512x10.size 1))).fold (FloatOps.maximumf (F := Ideal) (φ := .f32))
          (constant (F := Ideal) S_ .f32 0xFF800000#32 (Shape.Idx.first hu)) (z ∘ reduces_S512x10_S512.lift i) :=
  Host.reduce_eq_fold_single _ z _ h' reduces_S512x10_S512 hu i

/-- The two folds are one: `max` on the extended reals from the value of the minus-infinity pattern. -/
theorem maxFold_eq (z : FVec Ideal S512x10 .f32) (hu : 0 < S_.numel) (i : S512.Idx) :
    (Finset.univ : Finset (Fin (S512x10.size 1))).fold max (FloatOps.ofBits (F := Ideal) .f32 0xFF800000#32) (z ∘ reduces_S512x10_S512.lift i)
      = (Finset.univ : Finset (Fin (S512x10.size 1))).fold (FloatOps.maximumf (F := Ideal) (φ := .f32))
          (constant (F := Ideal) S_ .f32 0xFF800000#32 (Shape.Idx.first hu)) (z ∘ reduces_S512x10_S512.lift i) := rfl

/-- The splat of minus infinity, as the kernel and as the host write it. -/
theorem negInf_eq (i : S512.Idx) (hb : S_.BroadcastsInDim S512 ![]) :
    broadcast S512 (Scalar.ofBits (F := Ideal) .f32 0xFF800000#32) i
      = broadcastInDim S512 ![] hb (constant (F := Ideal) S_ .f32 0xFF800000#32) i := rfl

/-- Each row's maximum from minus infinity, taken once more against minus infinity, whatever the host's shape facts. -/
theorem kRowMax_eq' (z : FVec Ideal S512x10 .f32) (h' : S512x10.ReducesTo [1] S512) (hu : 0 < S_.numel) (hb : S_.BroadcastsInDim S512 ![]) :
    kRowMax z = maximumf (broadcastInDim S512 ![] hb (constant (F := Ideal) S_ .f32 0xFF800000#32))
      (Host.reduce FloatOps.maximumf z (constant (F := Ideal) S_ .f32 0xFF800000#32) h' hu) := by
  funext i
  unfold kRowMax
  rw [ValueIdx.maximumf_apply, ValueIdx.maximumf_apply]
  refine congrArg₂ max (negInf_eq i hb) ?_
  exact (kMaxRed_apply z i).trans ((maxFold_eq z hu i).trans (rMaxRed_apply z h' hu i).symm)

theorem kRowMax_eq (z : FVec Ideal S512x10 .f32) : kRowMax z = Cert.RefOps.rowMax (F := Ideal) z :=
  kRowMax_eq' z _ _ _

/-- A vector of 512 row values as a column repeated across the ten classes: entry `(p, q)` is the vector's entry `p`,
    whatever the host's shape facts. -/
theorem kCols_eq' (v : FVec Ideal S512 .f32) (hb1 : S512.BroadcastsInDim S512x1 ![0]) (hb2 : S512x1.BroadcastsInDim S512x10 ![0, 1]) :
    kCols v = broadcastInDim S512x10 ![0, 1] hb2 (broadcastInDim S512x1 ![0] hb1 v) := by
  funext j
  obtain ⟨p, q, rfl⟩ : ∃ (p : Fin 512) (q : Fin 10), j = ix2 p q := ⟨j 0, j 1, ValueIdx.eq_ix2 j⟩
  unfold kCols
  rw [Cert.LibColumn.broadcastTo_a1_ab_apply, Cert.LibColumn.shapeCast_a_a1_apply, bid_col_apply, bid_cast_col_apply]

theorem kCols_eq (v : FVec Ideal S512 .f32) : kCols v = Cert.RefOps.cols (F := Ideal) v :=
  kCols_eq' v _ _

/-- Every entry less its row's maximum. -/
theorem kShifted_eq (z : FVec Ideal S512x10 .f32) : kShifted z = Cert.RefOps.shifted (F := Ideal) z := by
  unfold kShifted
  rw [kRowMax_eq, kCols_eq]

/-- The row sums' logarithms as a repeated column: the lane sum from zero is the host's sum with its zero initial value,
    the logarithm is one function on both sides, and entry `(p, q)` of either column form is entry `p`. -/
theorem kLogSum_eq (e : FVec Ideal S512x10 .f32) (h' : S512x10.ReducesTo [1] S512) (hu : 0 < S_.numel)
    (hb1 : S512.BroadcastsInDim S512x1 ![0]) (hb2 : S512x1.BroadcastsInDim S512x10 ![0, 1]) :
    kLogCols (kSum e) = broadcastInDim S512x10 ![0, 1] hb2 (Host.log (broadcastInDim S512x1 ![0] hb1
      (Host.reduceAdd (F := Ideal) e (constant (F := Ideal) S_ .f32 0x00000000#32) h' hu))) := by
  funext j
  obtain ⟨p, q, rfl⟩ : ∃ (p : Fin 512) (q : Fin 10), j = ix2 p q := ⟨j 0, j 1, ValueIdx.eq_ix2 j⟩
  unfold kLogCols
  rw [Cert.LibColumn.broadcastTo_a1_ab_apply, bid_col_apply]
  show Ideal.log (shapeCast S512x1 (kSum e) shapeCasts_S512_S512x1 (ix2 p (0 : Fin 1)))
    = Ideal.log (broadcastInDim S512x1 ![0] hb1 (Host.reduceAdd (F := Ideal) e (constant (F := Ideal) S_ .f32 0x00000000#32) h' hu) (ix2 p (0 : Fin 1)))
  rw [Cert.LibColumn.shapeCast_a_a1_apply, bid_cast_col_apply]
  refine congrArg Ideal.log ?_
  unfold kSum
  refine (Ideal.multiReduction_add_single e 0x00000000#32 reduces_S512x10_S512 (.inl rfl) rfl (ix1 p)).trans ?_
  simp only [Host.reduceAdd, Ideal.hostReduceAdd_def]
  rw [Ideal.hostReduceAdd_single h' reduces_S512x10_S512]
  show _ = Ideal.ofBits .f32 0x00000000#32 + _
  rw [Ideal.ofBits_zero_f32, zero_add]

/-- The exponential is one function for the kernel and the host. -/
theorem exp_eq_host (x : FVec Ideal S512x10 .f32) : exp x = Host.exp x := rfl

/-- The body's tail is the row-wise log-softmax. -/
theorem kTail_eq (z : FVec Ideal S512x10 .f32) : kTail z = Cert.RefOps.logSoftmax (F := Ideal) z := by
  unfold kTail
  rw [kShifted_eq, exp_eq_host]
  exact congrArg (subf (F := Ideal) (Cert.RefOps.shifted (F := Ideal) z : FVec Ideal S512x10 .f32)) (kLogSum_eq _ _ _ _ _)

/-- The whole body over plain arrays: the log-softmax of the logits. -/
theorem pay_value (g : Vec Ideal S512x128 .f32) (w : Vec Ideal S128x10 .f32) (b : Vec Ideal S1x10 .f32) :
    k3_pay1 (F := Ideal) g w b = Cert.RefOps.logSoftmax (F := Ideal) (Cert.RefOps.logits (F := Ideal) g w b) := by
  rw [pay_eq, kLogits_eq, kTail_eq]

/-- The same with the three operands and the index named apart from the arrays and the index they equal: the form the
    region's one point is read in. -/
theorem pay_whole (G : (⟨Cert.ReferenceIdeal.S512x128, .f32⟩ : BufTy).Contents (Elt Ideal)) (W : (⟨Cert.ReferenceIdeal.S128x10, .f32⟩ : BufTy).Contents (Elt Ideal))
    (B : (⟨Cert.ReferenceIdeal.S1x10, .f32⟩ : BufTy).Contents (Elt Ideal))
    (g : Vec Ideal S512x128 .f32) (w : Vec Ideal S128x10 .f32) (b : Vec Ideal S1x10 .f32) (j i : S512x10.Idx)
    (hg : ∀ x, g x = G x) (hw : ∀ x, w x = W x) (hb : ∀ x, b x = B x) (hi : i = j) :
    k3_pay1 (F := Ideal) g w b j = Cert.RefOps.logSoftmax (F := Ideal) (Cert.RefOps.logits (F := Ideal) G W B) i := by
  obtain rfl : g = G := funext hg
  obtain rfl : w = W := funext hw
  obtain rfl : b = B := funext hb
  subst hi
  rw [pay_value]

/-! ## The region's output array -/

theorem hz : (![0, 0] : Fin 2 → Nat) = fun _ => 0 := funext fun a => by fin_cases a <;> rfl

/-- At the grid's one point every window sits on block (0, 0) of its array. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the one point writes back is the whole log-softmax of the logits of the region's three input arrays: each
    block is its whole array, so each input block read through its window is the array itself. -/
theorem flushed_eq (c : Dev nD) (t : Fin cfg3.N) :
    (dat3 (F := Ideal) V c).flushed 3 t
      = ((cfg3.win 3).blk t).view.read (Elt Ideal) (Cert.RefOps.logSoftmax (F := Ideal) (Cert.RefOps.logits (F := Ideal) (V c main_v80) (V c main_arg9) (V c main_v81))) := by
  show (cfg3.win 3).cut (grid3.coords t) ((dat3 (F := Ideal) V c).after 3 t) = _
  rw [after3_3]
  unfold out3_3
  rw [View.canon_unit_zero hz]
  simp only [View.ld_unit_zero (S := S512x128) hz, View.ld_unit_zero (S := S128x10) hz, View.ld_unit_zero (S := S1x10) hz]
  obtain ⟨e0, e1, e2, e3, e4, e5, e6, e7⟩ := idx_facts t
  funext j
  show k3_pay1 (F := Ideal) (iblk3 V c 0 t) (iblk3 V c 1 t) (iblk3 V c 2 t) j
    = Cert.RefOps.logSoftmax (F := Ideal) (Cert.RefOps.logits (F := Ideal) (V c main_v80) (V c main_arg9) (V c main_v81)) (((cfg3.win 3).blk t).view.emb j)
  refine pay_whole (V c main_v80) (V c main_arg9) (V c main_v81) (iblk3 V c 0 t) (iblk3 V c 1 t) (iblk3 V c 2 t) j
    (((cfg3.win 3).blk t).view.emb j) (fun x => ?_) (fun x => ?_) (fun x => ?_) (funext fun a => Fin.ext ?_)
  · show V c main_v80 (((cfg3.win 0).blk t).view.emb x) = V c main_v80 x
    refine congrArg _ (funext fun a => Fin.ext ?_)
    match a with
    | ⟨0, _⟩ => show win3_0.index t (0 : Fin 2) * 512 + 1 * (x 0).val = (x 0).val; omega
    | ⟨1, _⟩ => show win3_0.index t (1 : Fin 2) * 128 + 1 * (x 1).val = (x 1).val; omega
  · show V c main_arg9 (((cfg3.win 1).blk t).view.emb x) = V c main_arg9 x
    refine congrArg _ (funext fun a => Fin.ext ?_)
    match a with
    | ⟨0, _⟩ => show win3_1.index t (0 : Fin 2) * 128 + 1 * (x 0).val = (x 0).val; omega
    | ⟨1, _⟩ => show win3_1.index t (1 : Fin 2) * 10 + 1 * (x 1).val = (x 1).val; omega
  · show V c main_v81 (((cfg3.win 2).blk t).view.emb x) = V c main_v81 x
    refine congrArg _ (funext fun a => Fin.ext ?_)
    match a with
    | ⟨0, _⟩ => show win3_2.index t (0 : Fin 2) * 1 + 1 * (x 0).val = (x 0).val; omega
    | ⟨1, _⟩ => show win3_2.index t (1 : Fin 2) * 10 + 1 * (x 1).val = (x 1).val; omega
  · match a with
    | ⟨0, _⟩ => show win3_3.index t (0 : Fin 2) * 512 + 1 * (j 0).val = (j 0).val; omega
    | ⟨1, _⟩ => show win3_3.index t (1 : Fin 2) * 10 + 1 * (j 1).val = (j 1).val; omega

/-- An index of the output array is in point `t`'s block iff each coordinate is in the block's range on its axis. -/
theorem mem_blk (t : Fin cfg3.N) (i : S512x10.Idx) :
    i ∈ ((cfg3.win 3).blk t).view.set ↔ ∀ a : Fin 2, win3_3.index t a * S512x10.size a ≤ (i a).val ∧ (i a).val < win3_3.index t a * S512x10.size a + S512x10.size a := by
  show i ∈ ((View.whole main_v82).slice (win3_3.rect t)).set ↔ _
  rw [View.set_slice_whole, Rect.mem_set_unit]
  exact Iff.rfl

/-- Every index of the output lies in the one point's block, which is the whole array. -/
theorem cover (i : S512x10.Idx) : ∃ t : Fin cfg3.N, (cfg3.win 3).flush t = true ∧ i ∈ ((cfg3.win 3).blk t).view.set := by
  have hi0 : (i 0).val < 512 := (i 0).isLt
  have hi1 : (i 1).val < 10 := (i 1).isLt
  obtain ⟨e0, e1, e2, e3, e4, e5, e6, e7⟩ := idx_facts t3_0
  refine ⟨t3_0, flush3_3 t3_0, ?_⟩
  rw [mem_blk]
  intro a
  match a with
  | ⟨0, _⟩ => show win3_3.index t3_0 (0 : Fin 2) * 512 ≤ (i 0).val ∧ (i 0).val < win3_3.index t3_0 (0 : Fin 2) * 512 + 512; omega
  | ⟨1, _⟩ => show win3_3.index t3_0 (1 : Fin 2) * 10 ≤ (i 1).val ∧ (i 1).val < win3_3.index t3_0 (1 : Fin 2) * 10 + 10; omega

/-- The output array after the region: the row-wise log-softmax of the logits of the three input arrays as the region
    found them. -/
theorem final (c : Dev nD) :
    (dat3 (F := Ideal) V c).arrAt 3 cfg3.N
      = Cert.RefOps.logSoftmax (F := Ideal) (Cert.RefOps.logits (F := Ideal) (V c main_v80) (V c main_arg9) (V c main_v81)) :=
  (dat3 (F := Ideal) V c).arrAt_eq_of_cover 3 (Cert.RefOps.logSoftmax (F := Ideal) (Cert.RefOps.logits (F := Ideal) (V c main_v80) (V c main_arg9) (V c main_v81)))
    (fun t _ => flushed_eq V c t) cover

end Cert.KernelIdeal.Head

end
-- ==== Proof.FoldIdeal.lean ====
/-
  The kernel program's two results as the reference's stages of the launch arguments, at the extended reals. Going
  through the program in order: the first dense region leaves `x · W1`, the reference's first product; the host stretch
  after it propagates that over the graph, the reference's first convolution; the second region applies bias, scale,
  shift and the positive part, the reference's activation (the three rows reach the kernel as [128] vectors reshaped to
  [1, 128], the reference's as the same vectors broadcast to [1, 128]: one array either way); the third region is the
  second product; the host stretch after it propagates, adds the bias and mean-pools, the reference's pooled
  features, which is the program's second result; the last region is the classifier with its row-wise log-softmax,
  the first result.
-/
import proofs.«101137_j3058016714895_1_alg».proof.Proof.FoldHost
import proofs.«101137_j3058016714895_1_alg».proof.Proof.RefOps
import proofs.«101137_j3058016714895_1_alg».proof.Proof.KernelIdealRun
import proofs.«101137_j3058016714895_1_alg».proof.Proof.Dense1
import proofs.«101137_j3058016714895_1_alg».proof.Proof.Dense2
import proofs.«101137_j3058016714895_1_alg».proof.Proof.Affine
import proofs.«101137_j3058016714895_1_alg».proof.Proof.Head
import Idealize.ShloMosaic.Lib.Pipeline.Value
import Idealize.ShloMosaic.Lib.ValueIdx
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem Idealize.ShloMosaic.ValueIdx
open Cert.ReferenceIdeal.ReadP

section AnyFamily

variable {F : FTy → Type} [FloatOps F]

/-- A [128] vector reshaped to one row is the same vector broadcast to one row: entry (0, i) is entry i. -/
theorem row128_eq (b : (⟨Cert.ReferenceIdeal.S128, .f32⟩ : BufTy).Contents (Elt F)) :
    shapeCast S1x128 b Cert.KernelIdeal.Gen.shapeCasts_S128_S1x128 = val_main_v44 (F := F) b := by
  funext j
  obtain ⟨u, i, rfl⟩ : ∃ (u : Fin 1) (i : Fin 128), j = ix2 u i := ⟨j 0, j 1, eq_ix2 j⟩
  rw [shapeCast_a_1a_apply]
  unfold val_main_v44
  refine (broadcastInDim_apply _ _ b (ix2 u i) (ix1 i) fun ax => ?_).symm
  match ax with
  | ⟨0, _⟩ => rfl

/-- The same for the classifier's [10] bias. -/
theorem row10_eq (b : (⟨Cert.ReferenceIdeal.S10, .f32⟩ : BufTy).Contents (Elt F)) :
    shapeCast S1x10 b Cert.KernelIdeal.Gen.shapeCasts_S10_S1x10 = val_main_v88 (F := F) b := by
  funext j
  obtain ⟨u, i, rfl⟩ : ∃ (u : Fin 1) (i : Fin 10), j = ix2 u i := ⟨j 0, j 1, eq_ix2 j⟩
  rw [shapeCast_a_1a_apply]
  unfold val_main_v88
  refine (broadcastInDim_apply _ _ b (ix2 u i) (ix1 i) fun ax => ?_).symm
  match ax with
  | ⟨0, _⟩ => rfl

/-- The reference's stages where the programs differ are the named maps of the stages before them. -/
theorem dense_v30 (x0 : (⟨Cert.ReferenceIdeal.S100000x128, .f32⟩ : BufTy).Contents (Elt F)) (x3 : (⟨Cert.ReferenceIdeal.S128x128, .f32⟩ : BufTy).Contents (Elt F)) :
    Cert.RefOps.dense (F := F) x0 x3 = val_main_v30 (F := F) x0 x3 := rfl
theorem affine_v57 (x0 : (⟨Cert.ReferenceIdeal.S100000x128, .f32⟩ : BufTy).Contents (Elt F)) (x1 : (⟨Cert.ReferenceIdeal.S2x1600000, .i32⟩ : BufTy).Contents (Elt F)) (x3 : (⟨Cert.ReferenceIdeal.S128x128, .f32⟩ : BufTy).Contents (Elt F)) (x4 x5 x6 : (⟨Cert.ReferenceIdeal.S128, .f32⟩ : BufTy).Contents (Elt F)) :
    Cert.RefOps.affineRelu (F := F) (val_main_v43 (F := F) x0 x1 x3) (val_main_v44 (F := F) x4) (val_main_v44 (F := F) (val_main_v50 (F := F) x5)) (val_main_v44 (F := F) x6)
      = val_main_v57 (F := F) x0 x1 x3 x4 x5 x6 := rfl
theorem dense_v58 (x0 : (⟨Cert.ReferenceIdeal.S100000x128, .f32⟩ : BufTy).Contents (Elt F)) (x1 : (⟨Cert.ReferenceIdeal.S2x1600000, .i32⟩ : BufTy).Contents (Elt F)) (x3 : (⟨Cert.ReferenceIdeal.S128x128, .f32⟩ : BufTy).Contents (Elt F)) (x4 x5 x6 : (⟨Cert.ReferenceIdeal.S128, .f32⟩ : BufTy).Contents (Elt F)) (x7 : (⟨Cert.ReferenceIdeal.S128x128, .f32⟩ : BufTy).Contents (Elt F)) :
    Cert.RefOps.dense (F := F) (val_main_v57 (F := F) x0 x1 x3 x4 x5 x6) x7 = val_main_v58 (F := F) x0 x1 x3 x4 x5 x6 x7 := rfl
theorem head_v91 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S128x128, .f32⟩ : BufTy).Contents (Elt F)) (x4 x5 x6 : (⟨Cert.ReferenceIdeal.S128, .f32⟩ : BufTy).Contents (Elt F)) (x7 : (⟨Cert.ReferenceIdeal.S128x128, .f32⟩ : BufTy).Contents (Elt F))
    (x8 : (⟨Cert.ReferenceIdeal.S128, .f32⟩ : BufTy).Contents (Elt F)) (x9 : (⟨Cert.ReferenceIdeal.S128x10, .f32⟩ : BufTy).Contents (Elt F)) (x10 : (⟨Cert.ReferenceIdeal.S10, .f32⟩ : BufTy).Contents (Elt F)) :
    Cert.RefOps.logSoftmax (F := F) (Cert.RefOps.logits (F := F) (val_main_v86 (F := F) x0 x1 x2 x3 x4 x5 x6 x7 x8) x9 (val_main_v88 (F := F) x10))
      = val_main_v91 (F := F) x0 x1 x2 x3 x4 x5 x6 x7 x8 x9 x10 := rfl

end AnyFamily

section AtIdeal

variable (m : (ℓ : Loc nD τ sig) → Buf (Elt Ideal) ℓ) (ρ : Dev nD → PrngReg)

/-- After region 0: the first product. -/
theorem W4_v30 (c : Dev nD) : W4 m ρ c (Proc.devRef .tc main_v30) = val_main_v30 (F := Ideal) (m ((c : Thread nD τ).loc main_arg0)) (m ((c : Thread nD τ).loc main_arg3)) := by
  refine (W4_arr m ρ c 2).trans ((Cert.KernelIdeal.Dense1.final (V3 m ρ) c).trans ?_)
  show Cert.RefOps.dense (F := Ideal) (W3 m ρ c (Proc.devRef .tc main_arg0)) (W3 m ρ c (Proc.devRef .tc main_arg3)) = _
  rw [W3_arg0 m ρ c, W3_arg3 m ρ c]
  exact dense_v30 _ _

/-- Region 1's entry: the first convolution. -/
theorem W5_v43I (c : Dev nD) : W5 m ρ c (Proc.devRef .tc main_v43) = val_main_v43 (F := Ideal) (m ((c : Thread nD τ).loc main_arg0)) (m ((c : Thread nD τ).loc main_arg1)) (m ((c : Thread nD τ).loc main_arg3)) :=
  W5_v43 m ρ c _ _ _ ((W4_v3 m ρ c).trans (W3_v3 m ρ c)) ((W4_v6 m ρ c).trans (W3_v6 m ρ c))
    ((W4_v29 m ρ c).trans (W3_v29 m ρ c)) (W4_v30 m ρ c)

/-- After region 1: the activation. -/
theorem W6_v51 (c : Dev nD) : W6 m ρ c (Proc.devRef .tc main_v51) = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 4).trans ((Cert.KernelIdeal.Affine.final (V5 m ρ) c).trans ?_)
  show Cert.RefOps.affineRelu (F := Ideal) (W5 m ρ c (Proc.devRef .tc main_v43)) (W5 m ρ c (Proc.devRef .tc main_v48))
    (W5 m ρ c (Proc.devRef .tc main_v49)) (W5 m ρ c (Proc.devRef .tc main_v50)) = _
  rw [W5_v43I m ρ c, W5_v48 m ρ c _ ((W4_arg4 m ρ c).trans (W3_arg4 m ρ c)), W5_v49 m ρ c _ ((W4_arg5 m ρ c).trans (W3_arg5 m ρ c)),
    W5_v50 m ρ c _ ((W4_arg6 m ρ c).trans (W3_arg6 m ρ c)), row128_eq, row128_eq, row128_eq]
  exact affine_v57 _ _ _ _ _ _

/-- After region 2: the second product. -/
theorem W7_v52 (c : Dev nD) : W7 m ρ c (Proc.devRef .tc main_v52) = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 2).trans ((Cert.KernelIdeal.Dense2.final (V6 m ρ) c).trans ?_)
  show Cert.RefOps.dense (F := Ideal) (W6 m ρ c (Proc.devRef .tc main_v51)) (W6 m ρ c (Proc.devRef .tc main_arg7)) = _
  rw [W6_v51 m ρ c, (W6_arg7_eq m ρ c).trans (W3_arg7 m ρ c)]
  exact dense_v58 _ _ _ _ _ _ _

/-- Region 3's entry: the pooled features. -/
theorem W8_v80I (c : Dev nD) : W8 m ρ c (Proc.devRef .tc main_v80) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  W8_v80 m ρ c _ _ _ _ _ _ _ _ _ ((W7_v3_eq m ρ c).trans (W3_v3 m ρ c)) ((W7_v6_eq m ρ c).trans (W3_v6 m ρ c))
    ((W7_v29_eq m ρ c).trans (W3_v29 m ρ c)) (W7_v52 m ρ c) ((W7_arg8_eq m ρ c).trans (W3_arg8 m ρ c)) ((W7_arg2_eq m ρ c).trans (W3_arg2 m ρ c))

/-- After region 3: the log-softmax of the classifier's logits, the program's first result. -/
theorem W9_v82 (c : Dev nD) : W9 m ρ c (Proc.devRef .tc main_v82) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W9_arr m ρ c 3).trans ((Cert.KernelIdeal.Head.final (V8 m ρ) c).trans ?_)
  show Cert.RefOps.logSoftmax (F := Ideal) (Cert.RefOps.logits (F := Ideal) (W8 m ρ c (Proc.devRef .tc main_v80))
    (W8 m ρ c (Proc.devRef .tc main_arg9)) (W8 m ρ c (Proc.devRef .tc main_v81))) = _
  rw [W8_v80I m ρ c, (W8_arg9 m ρ c).trans ((W7_arg9_eq m ρ c).trans (W3_arg9 m ρ c)),
    W8_v81 m ρ c _ ((W7_arg10_eq m ρ c).trans (W3_arg10 m ρ c)), row10_eq]
  exact head_v91 _ _ _ _ _ _ _ _ _ _ _

/-- Region 3 only reads the pooled features: the program's second result is what its entry held. -/
theorem W9_v80 (c : Dev nD) : W9 m ρ c (Proc.devRef .tc main_v80) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W9_arr m ρ c 0).trans (((dat3 (V8 m ρ) c).arrAt_in 0 rfl _).trans (A_eq3 (V8 m ρ) c 0))).trans (W8_v80I m ρ c)

/-- The kernel program's run: it terminates with its two results at the reference's stages of its own arguments, the
    arguments unchanged. -/
theorem run : θ_run defs (onTc (τ := τ) (main (F := Ideal))) ⟨m, fun _ => 0, ρ⟩ (fun r => ∀ c : Dev nD,
      r.2.mem ((c.tc : Thread nD τ).loc main_v82) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v80) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W9_v82 m ρ c), (h c).2.1.trans (W9_v80 m ρ c), (h c).2.2⟩)
    (Cert.KernelIdeal.Named.run m ρ)

end AtIdeal

end Cert.KernelIdeal.Fold

end
-- ==== Proof.lean ====
/-
  The certificate of a two-layer graph convolution with mean pooling and a log-softmax classifier, computed by a program
  whose two dense layers, whose bias / scale / shift / positive-part step and whose classifier head are tiled kernels,
  against the same network written with whole-array operations.

  Frames. The two kernel programs' frames are the generated ones. The reference has no kernel: its frame is its run,
  with the results dropped.

  The idealization changed nothing in the kernel program, so there is nothing to preserve.

  Equality over the extended reals. Both programs apply the same host operations to the edge list (sources and targets
  with self loops, degrees, inverse square roots, edge weights), gather, scale and scatter-add with the same operations,
  and pool with the same operations; they differ in four places, and in each the kernel's region leaves the array the
  reference's operation produces: a product `x · W` computed 10000 rows at a time is the whole product, entry by entry
  the same sum over the 128 inner columns (roundings to bf16 are the identity on extended reals, and the accumulator
  starts at zero); the pointwise map `max ((conv + b) · s + β, 0)` computed tile by tile is the whole map, the
  three rows read above the entry's column either way; and the classifier, one block, is the same logits, row maxima,
  exponentials, row sums and logarithms. No law of arithmetic beyond reading sums and maxima at an index is used, so
  the inputs' finiteness is never opened. Threading these four facts through the buffer contents at the boundaries
  between host stretches and regions gives the kernel program's two results as the reference's own stage functions
  of the arguments; the reference's run gives the same functions of its arguments, which agree.
-/
import proofs.«101137_j3058016714895_1_alg».proof.Defs
import proofs.«101137_j3058016714895_1_alg».proof.Proof.Gen.Kernel
import proofs.«101137_j3058016714895_1_alg».proof.Proof.Gen.Kernel.Skeleton
import proofs.«101137_j3058016714895_1_alg».proof.Proof.Gen.Kernel.Launch
import proofs.«101137_j3058016714895_1_alg».proof.Proof.Gen.Kernel.Points
import proofs.«101137_j3058016714895_1_alg».proof.Proof.Gen.Kernel.Frame
import proofs.«101137_j3058016714895_1_alg».proof.Proof.Gen.KernelIdeal
import proofs.«101137_j3058016714895_1_alg».proof.Proof.Gen.KernelIdeal.Skeleton
import proofs.«101137_j3058016714895_1_alg».proof.Proof.Gen.KernelIdeal.Launch
import proofs.«101137_j3058016714895_1_alg».proof.Proof.Gen.KernelIdeal.Points
import proofs.«101137_j3058016714895_1_alg».proof.Proof.Gen.KernelIdeal.Frame
import proofs.«101137_j3058016714895_1_alg».proof.Proof.Gen.ReferenceIdeal
import proofs.«101137_j3058016714895_1_alg».proof.Proof.Gen.Pre_finite_inputs
import proofs.«101137_j3058016714895_1_alg».proof.Proof.RefRun
import proofs.«101137_j3058016714895_1_alg».proof.Proof.RefRead
import proofs.«101137_j3058016714895_1_alg».proof.Proof.FoldIdeal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run terminates with the arguments unchanged; what the results hold is dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with their two results at the same two stage functions of arguments that agree. -/
theorem algebraic : Cert.algebraic_KernelIdeal_ReferenceIdeal := by
  intro m ρ m' ρ' _ hagree
  refine ⟨_, _, Cert.KernelIdeal.Fold.run m ρ, ?_⟩
  refine (θ_run Cert.ReferenceIdeal.defs _ _).mono (fun r h c => ?_) (Cert.ReferenceIdeal.ValueP.run (F := Ideal) m' ρ')
  obtain ⟨e0, e1, e2, e3, e4, e5, e6, e7, e8, e9, e10⟩ := hagree c
  refine ⟨?_, ?_, (h c).2.2⟩
  · rw [(h c).1, Cert.ReferenceIdeal.ReadP.val_main_v91_eq, e0, e1, e2, e3, e4, e5, e6, e7, e8, e9, e10]
  · rw [(h c).2.1, Cert.ReferenceIdeal.ReadP.val_main_v86_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
